-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S768x768 : Shape := ⟨2, ![768, 768]⟩
abbrev S768 : Shape := ⟨1, ![768]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S16384x768 .f32) (main_arg1 : FVec F S768x768 .f32) (main_arg2 : FVec F S768 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S16384x768 : Shape := ⟨2, ![16384, 768]⟩
abbrev S768x768 : Shape := ⟨2, ![768, 768]⟩
abbrev S768 : Shape := ⟨1, ![768]⟩
abbrev S1x768 : Shape := ⟨2, ![1, 768]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S16384x768, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S768x768, .bf16⟩
  | .hbm, ⟨5, _⟩ => ⟨S16384x768, .f32⟩
  | .local _ .vmem, ⟨0, _⟩ => ⟨S1024x768, .f32⟩
  | .local _ .vmem, ⟨1, _⟩ => ⟨S1024x768, .f32⟩
  | .local _ .vmem, ⟨2, _⟩ => ⟨S768x768, .bf16⟩
  | .local _ .vmem, ⟨3, _⟩ => ⟨S1x768, .f32⟩
  | .local _ .vmem, ⟨4, _⟩ => ⟨S1024x768, .f32⟩
  | .local _ .vmem, ⟨5, _⟩ => ⟨S1024x768, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S768_S1x768 : S768.ShapeCasts S1x768
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S16384x768.size a
  hwx0_3 : ∀ i : grid0.Coords, EltTy.bits .f32 = 32 ∨ (Rect.block (s := S16384x768) S1024x768.size (cc0_transform_3 i) (hinb0_3 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x768 : Shape := ⟨2, ![16384, 768]⟩
abbrev S768x768 : Shape := ⟨2, ![768, 768]⟩
abbrev S768 : Shape := ⟨1, ![768]⟩
abbrev S1x768 : Shape := ⟨2, ![1, 768]⟩

abbrev nBuf : Space → Nat
  | .hbm => 7
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S768x768, .f32⟩
  | .hbm, ⟨2, _⟩ => ⟨S768, .f32⟩
  | .hbm, ⟨3, _⟩ => ⟨S16384x768, .f32⟩
  | .hbm, ⟨4, _⟩ => ⟨S1x768, .f32⟩
  | .hbm, ⟨5, _⟩ => ⟨S16384x768, .f32⟩
  | .hbm, ⟨6, _⟩ => ⟨S16384x768, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  dot_S16384x768_S768x768_S16384x768_1_0_0_1_n_n_wf : DotDims.WF S16384x768 S768x768 S16384x768 [1] [0] [0] [1] [] []

variable [Facts₀]

def dot_S16384x768_S768x768_S16384x768_1_0_0_1_n_n : DotDims S16384x768 S768x768 S16384x768 where
  lhsContracting := [1]
  rhsContracting := [0]
  lhsNonContracting := [0]
  rhsNonContracting := [1]
  lhsBatch := []
  rhsBatch := []
  wf := dot_S16384x768_S768x768_S16384x768_1_0_0_1_n_n_wf

class Facts : Prop extends Facts₀ where

variable [Facts]
-- ==== Proof.DenseSpec.lean ====
/-
  The dense layer, as one function over the extended reals.

  For activations `x` of 16384 rows by 768 features, weights `w` of 768 features by 768 units and a bias of one
  entry per unit, the layer's entry at row `b` and unit `u` is the inner product of row `b` of `x` with column
  `u` of `w`, plus `bias u`:

      dense x w bias (b, u) = (∑ k, x (b, k) · w (k, u)) + bias u.

  Both programs of this certificate compute this function. The kernel walks the rows in sixteen slabs of 1024 and
  multiplies each slab by the whole weight matrix; the reference contracts the whole arrays at once. Over the extended
  reals a change of float format is the identity, so the kernel's narrowing of both operands changes nothing, and the
  two sides agree term by term: no law of arithmetic is needed beyond reading each side at an index.
-/
import Idealize.ShloMosaic.PureOps.Ideal
import Idealize.ShloMosaic.Lib.ValueIdx

noncomputable section

open scoped BigOperators

namespace Cert.DenseSpec

open Idealize.ShloMosaic Idealize.ShloMosaic.ValueIdx

/-- Entry `(b, u)` of the dense layer: row `b` of the activations against column `u` of the weights, summed over
    the 768 features, plus the bias of unit `u`. -/
def dense (x : (⟨2, ![16384, 768]⟩ : Shape).Idx → EReal) (w : (⟨2, ![768, 768]⟩ : Shape).Idx → EReal)
    (bias : (⟨1, ![768]⟩ : Shape).Idx → EReal) : (⟨2, ![16384, 768]⟩ : Shape).Idx → EReal :=
  fun i => (∑ k : Fin 768, x (ix2 (i 0) k) * w (ix2 k (i 1))) + bias (ix1 (i 1))

/-- The layer read at explicit coordinates. -/
theorem dense_apply (x : (⟨2, ![16384, 768]⟩ : Shape).Idx → EReal) (w : (⟨2, ![768, 768]⟩ : Shape).Idx → EReal)
    (bias : (⟨1, ![768]⟩ : Shape).Idx → EReal) (b : Fin 16384) (u : Fin 768) :
    dense x w bias (ix2 b u) = (∑ k : Fin 768, x (ix2 b k) * w (ix2 k u)) + bias (ix1 u) := rfl

end Cert.DenseSpec

end
-- ==== Proof.RefDense.lean ====
/-
  The reference computes the dense layer.

  The reference contracts the whole activation array with the whole weight array along the feature axis, widens the
  bias to every row, and adds. Read at an entry `(b, u)`: the contraction is the sum over the 768 features `k` of
  `x (b, k) · w (k, u)`, and the widened bias is `bias u` whatever the row. That is `DenseSpec.dense`.
-/
import proofs.«426045_j90151363543119_3_alg».proof.Proof.Gen.ReferenceIdeal.Read
import proofs.«426045_j90151363543119_3_alg».proof.Proof.DenseSpec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The contraction's left factor at entry `i` and feature `k` sits at row `i 0`, column `k` of the activations. -/
theorem activation_index (i : S16384x768.Idx) (k : Fin 768) : lidx_main_v0 i k = ix2 (i 0) k :=
  funext fun a => Fin.ext (by match a with | ⟨0, _⟩ => rfl | ⟨1, _⟩ => rfl)

/-- Its right factor sits at row `k`, column `i 1` of the weights. -/
theorem weight_index (i : S16384x768.Idx) (k : Fin 768) : ridx_main_v0 i k = ix2 k (i 1) :=
  funext fun a => Fin.ext (by match a with | ⟨0, _⟩ => rfl | ⟨1, _⟩ => rfl)

/-- The bias, widened first to one row and then to every row, is read at the entry's unit `i 1`. -/
theorem bias_index (i : S16384x768.Idx) : idx_main_v1 (idx_main_v2 i) = ix1 (i 1) :=
  funext fun a => Fin.ext (by match a with | ⟨0, _⟩ => rfl)

/-- The reference's result, as a function of its three arguments, is the dense layer: entry by entry the contraction
    is the inner product over the features and the broadcast bias is the unit's bias. -/
theorem reference_is_dense (x : (⟨S16384x768, .f32⟩ : BufTy).Contents (Elt Ideal)) (w : (⟨S768x768, .f32⟩ : BufTy).Contents (Elt Ideal))
    (bias : (⟨S768, .f32⟩ : BufTy).Contents (Elt Ideal)) :
    val_main_v3 (F := Ideal) x w bias = Cert.DenseSpec.dense x w bias := by
  funext i
  rw [val_main_v3_apply, val_main_v0_apply, val_main_v2_apply, val_main_v1_apply]
  simp only [activation_index, weight_index, bias_index]
  rfl

end Cert.ReferenceIdeal.RefValue

end
-- ==== Proof.SlabBody.lean ====
/-
  What the kernel body computes on one slab of rows.

  At a grid point the body holds a slab of 1024 rows of the activations, the whole weight matrix and the bias as one
  row. It multiplies the slab by the weights into a zero accumulator and adds the bias row widened to all 1024 rows.
  Over the extended reals the narrowing of the two factors is the identity and the zero accumulator adds nothing, so
  entry `(p, q)` of the slab's result is the inner product of the slab's row `p` with the weights' column `q`,
  plus the bias row's entry `q`.
-/
import proofs.«426045_j90151363543119_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.SlabBody

open Cert.KernelIdeal Cert.KernelIdeal.Gen
open Idealize.ShloMosaic Idealize.ShloMosaic.ValueIdx

/-! ## The slab product's dimension numbers, axis by axis

The product contracts axis 1 of the slab with axis 0 of the weights; the result's axis 0 is the slab's row and its
axis 1 the weights' column. -/

theorem slab_row (i : S1024x768.Idx) (r : dot_S1024x768_S768x768_S1024x768_1_0_0_1_n_n.contr.Idx) :
    (dot_S1024x768_S768x768_S1024x768_1_0_0_1_n_n.lhsIdx i r 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem slab_feature (i : S1024x768.Idx) (r : dot_S1024x768_S768x768_S1024x768_1_0_0_1_n_n.contr.Idx) :
    (dot_S1024x768_S768x768_S1024x768_1_0_0_1_n_n.lhsIdx i r 1).val = (r ⟨0, by decide⟩).val :=
  dot_S1024x768_S768x768_S1024x768_1_0_0_1_n_n.lhsIdx_val_of_single rfl i r
theorem weight_feature (i : S1024x768.Idx) (r : dot_S1024x768_S768x768_S1024x768_1_0_0_1_n_n.contr.Idx) :
    (dot_S1024x768_S768x768_S1024x768_1_0_0_1_n_n.rhsIdx i r 0).val = (r ⟨0, by decide⟩).val :=
  dot_S1024x768_S768x768_S1024x768_1_0_0_1_n_n.rhsIdx_val_of_single rfl i r
theorem weight_unit (i : S1024x768.Idx) (r : dot_S1024x768_S768x768_S1024x768_1_0_0_1_n_n.contr.Idx) :
    (dot_S1024x768_S768x768_S1024x768_1_0_0_1_n_n.rhsIdx i r 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The slab product into a zero accumulator, at entry `(p, q)`: the sum over the 768 features of the slab's
    `(p, k)` times the weights' `(k, q)`. -/
theorem slab_product_apply (a : FVec Ideal S1024x768 .bf16) (w : FVec Ideal S768x768 .bf16) (p : Fin 1024) (q : Fin 768) :
    matmul (F := Ideal) dot_S1024x768_S768x768_S1024x768_1_0_0_1_n_n none a w (constant S1024x768 .f32 0x00000000#32) (ix2 p q)
      = ∑ k : Fin 768, a (ix2 p k) * w (ix2 k q) := by
  refine (Ideal.matmul_constant_zero_apply dot_S1024x768_S768x768_S1024x768_1_0_0_1_n_n none a w (ix2 p q)).trans ?_
  rw [← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 p q) ((contrEquiv1 dot_S1024x768_S768x768_S1024x768_1_0_0_1_n_n 768 rfl rfl).symm k) = ix2 p k := funext fun c => Fin.ext (by
    match c with
    | ⟨0, _⟩ => exact slab_row _ _
    | ⟨1, _⟩ => exact (slab_feature _ _).trans hk)
  have er : dot_S1024x768_S768x768_S1024x768_1_0_0_1_n_n.rhsIdx (ix2 p q) ((contrEquiv1 dot_S1024x768_S768x768_S1024x768_1_0_0_1_n_n 768 rfl rfl).symm k) = ix2 k q := funext fun c => Fin.ext (by
    match c with
    | ⟨0, _⟩ => exact (weight_feature _ _).trans hk
    | ⟨1, _⟩ => exact weight_unit _ _)
  rw [el, er]

/-- The bias row widened to the slab, at entry `(p, q)`: the row's entry `q`, whatever the row `p`. -/
theorem bias_row_apply (b : FVec Ideal S1x768 .f32) (hc : S1x768.ShapeCasts S1x768) (hb : S1x768.Broadcasts S1024x768)
    (p : Fin 1024) (q : Fin 768) :
    broadcastTo S1024x768 (shapeCast S1x768 b hc) hb (ix2 p q) = b (ix2 (0 : Fin 1) q) := by
  rw [shapeCast_self]
  exact broadcastTo_apply b hb (ix2 p q) (ix2 (0 : Fin 1) q) (fun c => match c with
    | ⟨0, _⟩ => by show 0 = if (1 : Nat) = 1 then 0 else p.val; rw [if_pos rfl]
    | ⟨1, _⟩ => by show q.val = if (768 : Nat) = 1 then 0 else q.val; rw [if_neg (by decide)])

/-- THE BODY'S RESULT at entry `(p, q)` of the slab, from the three blocks it loads: the inner product of the slab's
    row `p` with the weights' column `q`, plus the bias row's entry `q`. -/
theorem body_apply (x : Vec Ideal S1024x768 .f32) (w : Vec Ideal S768x768 .bf16) (b : Vec Ideal S1x768 .f32) (p : Fin 1024) (q : Fin 768) :
    k0_pay1 (F := Ideal) x w b (ix2 p q) = (∑ k : Fin 768, x (ix2 p k) * w (ix2 k q)) + b (ix2 (0 : Fin 1) q) := by
  unfold k0_pay1
  refine (addf_apply _ _ (ix2 p q)).trans ?_
  refine congrArg₂ (· + ·) ?_ (bias_row_apply b _ _ p q)
  rw [shapeCast_self]
  exact slab_product_apply (truncf .bf16 x bitsLt_bf16_f32) w p q

end Cert.KernelIdeal.SlabBody

end
-- ==== Proof.DenseValue.lean ====
/-
  The kernel's result array is the dense layer.

  The grid has sixteen points. Point `t` stages rows `1024·t … 1024·t + 1023` of the activations, the whole weight
  matrix and the whole bias row, and writes back the same rows of the result. Before the region the host narrows the
  weights (the identity over the extended reals) and reshapes the bias from 768 entries to one row of 768. So entry
  `(p, q)` of the slab written at point `t` is the inner product of row `1024·t + p` of the activations with column
  `q` of the weights, plus `bias q`: the dense layer at row `1024·t + p`. The sixteen slabs tile the rows (row `r`
  lies in slab `r / 1024`), so the whole result array is the dense layer.
-/
import proofs.«426045_j90151363543119_3_alg».proof.Proof.Gen.KernelIdeal.Value
import proofs.«426045_j90151363543119_3_alg».proof.Proof.SlabBody
import proofs.«426045_j90151363543119_3_alg».proof.Proof.DenseSpec
import Idealize.ShloMosaic.Lib.StableHlo.Run
import Idealize.ShloMosaic.Lib.Pipeline.Value
import Idealize.ShloMosaic.Lib.ValueIdx

noncomputable section

open scoped BigOperators

namespace Cert.KernelIdeal.DenseValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-! ## The two arrays the host prepares before the region -/

/-- The weights as the region finds them are the weight argument narrowed, which over the extended reals is the
    weight argument itself, entry by entry. -/
theorem staged_weights (c : Dev nD) (i : S768x768.Idx) :
    (V m c main_call0_v1 : S768x768.Idx → EReal) i = m ((c : Thread nD τ).loc main_arg1) i := by
  have e : @Eq (S768x768.Idx → EReal) (V m c main_call0_v1)
      (truncf (F := Ideal) .bf16 (m ((c : Thread nD τ).loc main_arg1) : FVec Ideal S768x768 .f32) bitsLt_bf16_f32) := by
    dsimp only [Gen.V, Gen.hostOps0]; after_results; rfl
  exact congrFun e i

/-- The bias as the region finds it is the bias argument laid out as one row: its entry `(0, q)` is `bias q`. -/
theorem staged_bias (c : Dev nD) (q : Fin 768) :
    (V m c main_call0_v0 : S1x768.Idx → EReal) (ix2 (0 : Fin 1) q) = m ((c : Thread nD τ).loc main_arg2) (ix1 q) := by
  have e : (V m c main_call0_v0 : S1x768.Idx → EReal)
      = shapeCast S1x768 (m ((c : Thread nD τ).loc main_arg2) : S768.Idx → EReal) shapeCasts_S768_S1x768 := by
    dsimp only [Gen.V, Gen.hostOps0]; after_results; rfl
  rw [e]
  exact shapeCast_apply _ _ (ix2 (0 : Fin 1) q) (ix1 q) (by
    rw [Shape.rowMajor_val_one, Shape.rowMajor_val_two]
    show q.val = 0 * 768 + q.val
    omega)

/-! ## One entry of one slab -/

/-- If the three loaded blocks are, where the entry reads them, row `i 0` of an activation array, column `i 1` of a
    weight array and entry `i 1` of a bias, then the body's result at `j` is the dense layer of those arrays at `i`. -/
theorem slab_entry_eq (x : Vec Ideal S1024x768 .f32) (w : Vec Ideal S768x768 .bf16) (b : Vec Ideal S1x768 .f32)
    (X : S16384x768.Idx → EReal) (W : S768x768.Idx → EReal) (B : S768.Idx → EReal) (j : S1024x768.Idx) (i : S16384x768.Idx)
    (hx : ∀ k : Fin 768, x (ix2 (j 0) k) = X (ix2 (i 0) k))
    (hw : ∀ k : Fin 768, w (ix2 k (j 1)) = W (ix2 k (i 1)))
    (hb : b (ix2 (0 : Fin 1) (j 1)) = B (ix1 (i 1))) :
    k0_pay1 (F := Ideal) x w b j = Cert.DenseSpec.dense X W B i := by
  refine (congrArg (k0_pay1 (F := Ideal) x w b) (eq_ix2 j)).trans ((SlabBody.body_apply x w b (j 0) (j 1)).trans ?_)
  show (∑ k : Fin 768, x (ix2 (j 0) k) * w (ix2 k (j 1))) + b (ix2 (0 : Fin 1) (j 1))
    = (∑ k : Fin 768, X (ix2 (i 0) k) * W (ix2 k (i 1))) + B (ix1 (i 1))
  rw [hb]
  exact congrArg (· + B (ix1 (i 1))) (Finset.sum_congr rfl fun k _ => by rw [hx k, hw k])

/-! ## The windows' index maps, decided over the sixteen points -/

/-- The activation window and the result window sit at row block `t`, column block 0; the weight and bias windows
    never move. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What each point writes back -/

/-- WHAT POINT `t` WRITES BACK is slab `t` of the dense layer of the three arguments. -/
theorem slab_written (c : Dev nD) (t : Fin cfg0.N) :
    (dats m 0 c).flushed 3 t = ((cfg0.win 3).blk t).view.read (Elt Ideal)
      (Cert.DenseSpec.dense (m ((c : Thread nD τ).loc main_arg0)) (m ((c : Thread nD τ).loc main_arg1)) (m ((c : Thread nD τ).loc main_arg2))) := by
  rw [Value.flushed3]
  unfold out0_3
  rw [View.canon_unit_zero origin]
  simp only [View.ld_unit_zero (S := S1024x768) origin, View.ld_unit_zero (S := S768x768) origin, View.ld_unit_zero (S := S1x768) origin]
  obtain ⟨a0, a1, w0, w1, b0, b1, o0, o1⟩ := index_facts t
  funext j
  show k0_pay1 (F := Ideal) (iblk m c 0 t) (iblk m c 1 t) (iblk m c 2 t) j
    = Cert.DenseSpec.dense (m ((c : Thread nD τ).loc main_arg0)) (m ((c : Thread nD τ).loc main_arg1)) (m ((c : Thread nD τ).loc main_arg2)) (((cfg0.win 3).blk t).view.emb j)
  refine slab_entry_eq (iblk m c 0 t) (iblk m c 1 t) (iblk m c 2 t) (m ((c : Thread nD τ).loc main_arg0)) (m ((c : Thread nD τ).loc main_arg1)) (m ((c : Thread nD τ).loc main_arg2)) j (((cfg0.win 3).blk t).view.emb j) (fun k => ?_) (fun k => ?_) ?_
  · -- the slab's row `j 0` is row `1024·t + j 0` of the activations
    show V m c main_arg0 (((cfg0.win 0).blk t).view.emb (ix2 (j 0) k : S1024x768.Idx)) = _
    rw [V_main_arg0]
    refine congrArg (m ((c : Thread nD τ).loc main_arg0)) (funext fun a => Fin.ext ?_)
    match a with
    | ⟨0, _⟩ =>
      show win0_0.index t (0 : Fin 2) * 1024 + 1 * (j 0).val = win0_3.index t (0 : Fin 2) * 1024 + 1 * (j 0).val
      omega
    | ⟨1, _⟩ =>
      show win0_0.index t (1 : Fin 2) * 768 + 1 * k.val = k.val
      omega
  · -- the staged weights are the weight argument, and the window is the whole matrix
    show (V m c main_call0_v1 : S768x768.Idx → EReal) (((cfg0.win 1).blk t).view.emb (ix2 k (j 1) : S768x768.Idx)) = _
    rw [staged_weights]
    refine congrArg (m ((c : Thread nD τ).loc main_arg1)) (funext fun a => Fin.ext ?_)
    match a with
    | ⟨0, _⟩ =>
      show win0_1.index t (0 : Fin 2) * 768 + 1 * k.val = k.val
      omega
    | ⟨1, _⟩ =>
      show win0_1.index t (1 : Fin 2) * 768 + 1 * (j 1).val = win0_3.index t (1 : Fin 2) * 768 + 1 * (j 1).val
      omega
  · -- the staged bias row's entry `j 1` is the bias of unit `j 1`
    have hidx : ((cfg0.win 2).blk t).view.emb (ix2 (0 : Fin 1) (j 1) : S1x768.Idx) = (ix2 (0 : Fin 1) (j 1) : S1x768.Idx) :=
      funext fun a => Fin.ext (by
        match a with
        | ⟨0, _⟩ =>
          show win0_2.index t (0 : Fin 2) * 1 + 1 * 0 = 0
          omega
        | ⟨1, _⟩ =>
          show win0_2.index t (1 : Fin 2) * 768 + 1 * (j 1).val = (j 1).val
          omega)
    show (V m c main_call0_v0 : S1x768.Idx → EReal) (((cfg0.win 2).blk t).view.emb (ix2 (0 : Fin 1) (j 1) : S1x768.Idx)) = _
    rw [hidx]
    refine (staged_bias m c (j 1)).trans ?_
    refine congrArg (m ((c : Thread nD τ).loc main_arg2)) (funext fun a => Fin.ext ?_)
    match a with
    | ⟨0, _⟩ =>
      show (j 1).val = win0_3.index t (1 : Fin 2) * 768 + 1 * (j 1).val
      omega

/-! ## The slabs tile the rows -/

/-- An entry is in point `t`'s slab iff each coordinate is in the slab's range on its axis. -/
theorem mem_slab (t : Fin cfg0.N) (i : S16384x768.Idx) :
    i ∈ ((cfg0.win 3).blk t).view.set ↔ ∀ a : Fin 2, win0_3.index t a * S1024x768.size a ≤ (i a).val ∧ (i a).val < win0_3.index t a * S1024x768.size a + S1024x768.size a := by
  show i ∈ ((View.whole main_v0).slice (win0_3.rect t)).set ↔ _
  rw [View.set_slice_whole, Rect.mem_set_unit]
  exact Iff.rfl

/-- Every entry of the result is written by some point: row `r` by point `r / 1024`. -/
theorem rows_covered (i : S16384x768.Idx) :
    ∃ t : Fin cfg0.N, (cfg0.win 3).flush t = true ∧ i ∈ ((cfg0.win 3).blk t).view.set := by
  have hi0 : (i 0).val < 16384 := (i 0).isLt
  have hi1 : (i 1).val < 768 := (i 1).isLt
  obtain ⟨t, ht⟩ : ∃ t : Fin cfg0.N, t.val = (i 0).val / 1024 :=
    ⟨⟨(i 0).val / 1024, by have := N_0; show (i 0).val / 1024 < grid0.N; omega⟩, rfl⟩
  obtain ⟨-, -, -, -, -, -, o0, o1⟩ := index_facts t
  refine ⟨t, flush0_3 t, ?_⟩
  rw [mem_slab]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 768 ≤ (i 1).val ∧ (i 1).val < win0_3.index t (1 : Fin 2) * 768 + 768
    omega

/-! ## The result array and the run -/

/-- THE RESULT ARRAY after the run is the dense layer of the three arguments. -/
theorem result_array (c : Dev nD) :
    (dats m 0 c).arrAt 3 cfg0.N = Cert.DenseSpec.dense (m ((c : Thread nD τ).loc main_arg0)) (m ((c : Thread nD τ).loc main_arg1)) (m ((c : Thread nD τ).loc main_arg2)) :=
  (dats m 0 c).arrAt_eq_of_cover 3 _ (fun t _ => slab_written m c t) rows_covered

/-- Every weakly fair execution of the idealized kernel terminates with its result at the dense layer of its arguments
    and the arguments unchanged. -/
theorem run : θ_run defs (onTc (τ := τ) (main (F := Ideal))) ⟨m, fun _ => 0, ρ⟩ fun r => ∀ c : Dev nD,
      r.2.mem ((c : Thread nD τ).loc main_v0) = Cert.DenseSpec.dense (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (Value.run_blocks m ρ)

end Cert.KernelIdeal.DenseValue

end
-- ==== Proof.lean ====
/-
  A dense layer, slab by slab, against the whole contraction.

  The kernel computes `inputs · kernel + bias` for 16384 rows, 768 features and 768 units: sixteen grid points, each
  multiplying a slab of 1024 rows by the whole weight matrix (both factors narrowed first) into a zero accumulator
  and adding the bias row. The reference contracts the whole arrays at once and adds the broadcast bias.

  Over the extended reals a change of float format is the identity and a sum does not depend on how its rows are
  tiled, so both programs end with the same function of the arguments,

      result (b, u) = (∑ k, inputs (b, k) · kernel (k, u)) + bias u      (`DenseSpec.dense`),

  the kernel's side read off its run slab by slab (`DenseValue.run`), the reference's off its run one operation at a
  time (`RefValue.reference_is_dense`). No arithmetic law joins the two sides beyond reading each at an entry, so the
  finiteness of the inputs is never used. The idealization rewrote no operation, so `preserves` has nothing to state.
-/
import proofs.«426045_j90151363543119_3_alg».proof.Defs
import proofs.«426045_j90151363543119_3_alg».proof.Proof.Gen.Kernel
import proofs.«426045_j90151363543119_3_alg».proof.Proof.Gen.Kernel.Skeleton
import proofs.«426045_j90151363543119_3_alg».proof.Proof.Gen.Kernel.Launch
import proofs.«426045_j90151363543119_3_alg».proof.Proof.Gen.Kernel.Points
import proofs.«426045_j90151363543119_3_alg».proof.Proof.Gen.Kernel.Frame
import proofs.«426045_j90151363543119_3_alg».proof.Proof.Gen.KernelIdeal
import proofs.«426045_j90151363543119_3_alg».proof.Proof.Gen.KernelIdeal.Skeleton
import proofs.«426045_j90151363543119_3_alg».proof.Proof.Gen.KernelIdeal.Launch
import proofs.«426045_j90151363543119_3_alg».proof.Proof.Gen.KernelIdeal.Points
import proofs.«426045_j90151363543119_3_alg».proof.Proof.Gen.KernelIdeal.Frame
import proofs.«426045_j90151363543119_3_alg».proof.Proof.Gen.ReferenceIdeal
import proofs.«426045_j90151363543119_3_alg».proof.Proof.Gen.KernelIdeal.Value
import proofs.«426045_j90151363543119_3_alg».proof.Proof.Gen.ReferenceIdeal.Run
import proofs.«426045_j90151363543119_3_alg».proof.Proof.Gen.ReferenceIdeal.Read
import proofs.«426045_j90151363543119_3_alg».proof.Proof.Gen.Pre_finite_inputs
import proofs.«426045_j90151363543119_3_alg».proof.Proof.DenseSpec
import proofs.«426045_j90151363543119_3_alg».proof.Proof.RefDense
import proofs.«426045_j90151363543119_3_alg».proof.Proof.SlabBody
import proofs.«426045_j90151363543119_3_alg».proof.Proof.DenseValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel ends at the dense layer of its arguments and the reference at the dense layer
    of its own: the same array. -/
theorem algebraic : Cert.algebraic_KernelIdeal_ReferenceIdeal := by
  intro m ρ m' ρ' _ hagree
  refine ⟨_, Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_is_dense,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
